-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x128 : Shape := ⟨2, ![512, 128]⟩
abbrev S512x64 : Shape := ⟨2, ![512, 64]⟩
abbrev S512x8192 : Shape := ⟨2, ![512, 8192]⟩
abbrev S512 : Shape := ⟨1, ![512]⟩
abbrev S512x1 : Shape := ⟨2, ![512, 1]⟩
abbrev S16x512 : Shape := ⟨2, ![16, 512]⟩

abbrev nBuf : Space → Nat
  | .hbm => 9
  | .vmem => 8
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_off2 (i : grid0.Coords) : Fin 2 → Nat :=
  let c0_11 : Index := 0#32
  let arg0 : BitVec 32 := BitVec.ofNat 32 (i 0).val
  let c512_i32_10 : BitVec 32 := 512#32
  let v23 : BitVec 32 := Scalar.muli arg0 c512_i32_10
  let v24 : Index := Scalar.indexCast v23
  ![0, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x8192_S512 : S512x8192.Reduces [1] S512
  shapeCasts_S512_S512x1 : S512.ShapeCasts S512x1
  broadcasts_S512x1_S512x8192 : S512x1.Broadcasts S512x8192
  h_S16x512 : 0 < S16x512.numel
  shapeCasts_S16x8192_S16x8192 : S16x8192.ShapeCasts S16x8192
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x8192_S512x8192_1_0_0_1_n_n_wf : DotDims.WF S512x64 S64x8192 S512x8192 [1] [0] [0] [1] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ a, (k0_off1 i) a + S512x128.size a ≤ S8192x128.size a
  k0_off2_inb : ∀ i : grid0.Coords, ∀ a, (k0_off2 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x8192_S512x8192_1_0_0_1_n_n : DotDims S512x64 S64x8192 S512x8192 where
  lhsContracting := [1]
  rhsContracting := [0]
  lhsNonContracting := [0]
  rhsNonContracting := [1]
  lhsBatch := []
  rhsBatch := []
  wf := dot_S512x64_S64x8192_S512x8192_1_0_0_1_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.KernelPieces.lean ====
/-
  What one grid point of the fused kernel leaves in its two carried buffers, as values.

  At the first point the body first fills the transposed key table (kept in a scratch buffer for the whole grid)
  and zeroes the output block; at every point it then adds to the output block the block's contribution, computed
  from 512 embedding rows, the query weights and bias, the key table as the scratch holds it, and 512 belief columns.
  Here each buffer's contents after a point are read back as the body's stored value over what the point loaded.
-/
import proofs.«139755_g5935644803188_cont_9to1c4b_610_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 512 embedding rows the body loads at grid point `i`: rows `512 i` onward of the staged table. -/
abbrev embRows (i : grid0.Coords) (x1 : Vec F S8192x128 .f32) : Vec F S512x128 .f32 :=
  View.ld x1 (Rect.unit (s := S8192x128) (k0_off1 i) S512x128.size (k0_off1_inb i))

/-- The 512 belief columns the body loads at grid point `i`: columns `512 i` onward of the staged beliefs. -/
abbrev beliefCols (i : grid0.Coords) (x0 : Vec F S16x8192 .f32) : Vec F S16x512 .f32 :=
  View.ld x0 (Rect.unit (s := S16x8192) (k0_off2 i) S16x512.size (k0_off2_inb i))

/-- At the first point the scratch ends holding the key table the body computed from the key weights, the whole
    embedding table and the key bias. -/
theorem sout_A (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (hc0 : cond0_0 i)
    (x0 : Vec F S16x8192 .f32) (x1 : Vec F S8192x128 .f32) (x2 : Vec F S64x128 .f32) (x3 : Vec F S1x64 .f32) (x4 : Vec F S64x128 .f32) (x5 : Vec F S64x1 .f32) :
    sout0_A_0 c i arg1 harg1 arg2 harg2 arg3 harg3 arg4 harg4 arg5 harg5 arg6 harg6 arg7 harg7 arg8 harg8 hc0 x0 x1 x2 x3 x4 x5 = k0_pay1 x4 x1 x5 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz]
  simp only [View.readAt_eq_ld, harg2.read_unread, harg5.read_unread, harg6.read_unread, View.ld_unit_zero (S := S64x128) hz,
    View.ld_unit_zero (S := S8192x128) hz, View.ld_unit_zero (S := S64x1) hz]

/-- At the first point the output block ends holding the block's contribution added to the zero block, the key
    table read back from the scratch just filled. -/
theorem out_A (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (hc0 : cond0_0 i)
    (x0 : Vec F S16x8192 .f32) (x1 : Vec F S8192x128 .f32) (x2 : Vec F S64x128 .f32) (x3 : Vec F S1x64 .f32) (x4 : Vec F S64x128 .f32) (x5 : Vec F S64x1 .f32) :
    out0_A_6 c i arg1 harg1 arg2 harg2 arg3 harg3 arg4 harg4 arg5 harg5 arg6 harg6 arg7 harg7 arg8 harg8 hc0 x0 x1 x2 x3 x4 x5
      = k0_pay3 (embRows i x1) x2 x3 (k0_pay1 x4 x1 x5) (beliefCols i x0) k0_pay2 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S16x8192) hz]
  simp only [View.readAt_eq_ld, harg1.read_unread, harg2.read_unread, harg3.read_unread, harg4.read_unread, harg5.read_unread,
    harg6.read_unread, View.ld_unit_zero (S := S64x128) hz, View.ld_unit_zero (S := S8192x128) hz,
    View.ld_unit_zero (S := S64x1) hz, View.ld_unit_zero (S := S1x64) hz,
    View.readCov_unit_zero (S := S16x8192) _ hz, View.readCov_unit_zero (S := S64x8192) _ hz]
  rfl

/-- At a later point the output block ends holding the block's contribution added to what the point before left,
    the key table as the scratch has held it since the first point. -/
theorem out_B (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (hc0 : ¬cond0_0 i)
    (x0 : Vec F S16x8192 .f32) (x1 : Vec F S8192x128 .f32) (x2 : Vec F S64x128 .f32) (x3 : Vec F S1x64 .f32) (x4 : Vec F S64x128 .f32) (x5 : Vec F S64x1 .f32) (xo6 : Vec F S16x8192 .f32) (xs0 : Vec F S64x8192 .bf16) :
    out0_B_6 c i arg1 harg1 arg2 harg2 arg3 harg3 arg4 harg4 arg5 harg5 arg6 harg6 arg7 harg7 arg8 harg8 hc0 x0 x1 x2 x3 x4 x5 xo6 xs0
      = k0_pay3 (embRows i x1) x2 x3 xs0 (beliefCols i x0) xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo6 xs0)]
  unfold kernelRun0_B
  dsimp only
  sl_unfold_words
  rw [View.canon_unit_zero hz]
  simp only [View.readAt_eq_ld, harg1.read_unread, harg2.read_unread, harg3.read_unread, harg4.read_unread, harg7.read_unread,
    harg8.read_unread, View.ld_unit_zero (S := S64x128) hz, View.ld_unit_zero (S := S1x64) hz,
    View.ld_unit_zero (S := S16x8192) hz, View.ld_unit_zero (S := S64x8192) hz]
  rfl

end Cert.KernelIdeal.Pieces

end
-- ==== Proof.KernelBlocks.lean ====
/-
  What the body is handed at a grid point, as functions of the program's arguments.

  Every input window of the call is one block, the whole array, at every grid point: the beliefs, the embedding table,
  the two weight matrices, and the two biases after the host program has re-laid them (the query bias as a row
  [1, 64], the key bias as a column [64, 1]). Inside the body two loads take a slab: 512 rows of the embedding table
  and 512 columns of the beliefs, both starting at 512 times the grid coordinate.
-/
import proofs.«139755_g5935644803188_cont_9to1c4b_610_5_alg».proof.Proof.KernelPieces
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The grid has one axis, and a point's coordinate on it is the point's position. -/
theorem coord_val : ∀ t : Fin cfg0.N, ((grid0.coords t) 0).val = t.val :=
  (by decide +kernel : ∀ t : Fin grid0.N, ((grid0.coords t) 0).val = t.val)

/-- The query bias as the call finds it: the host program has re-laid the 64 entries as a row. -/
theorem queryBias_eq (c : Dev nD) :
    (V m c main_v0 : Vec F S1x64 .f32) = shapeCast S1x64 (m ((c : Thread nD τ).loc main_arg5)) shapeCasts_S64_S1x64 := by
  dsimp only [Gen.V, Gen.hostOps0]; after_results; rfl

/-- The key bias as the call finds it: the host program has re-laid the 64 entries as a column. -/
theorem keyBias_eq (c : Dev nD) :
    (V m c main_v1 : Vec F S64x1 .f32) = shapeCast S64x1 (m ((c : Thread nD τ).loc main_arg3)) shapeCasts_S64_S64x1 := by
  dsimp only [Gen.V, Gen.hostOps0]; after_results; rfl

/-- The staged beliefs are the argument array. -/
theorem beliefs_eq (c : Dev nD) (t : Fin cfg0.N) :
    (iblk m c 0 t : Vec F S16x8192 .f32) = m ((c : Thread nD τ).loc main_arg0) := by
  funext j
  unfold iblk
  rw [View.read_apply]
  refine Eq.trans ?_ (congrFun (V_main_arg0 m c) j)
  show V m c main_arg0 _ = V m c main_arg0 j
  congr 1
  funext a
  apply Fin.ext
  match a with
  | ⟨0, _⟩ => show win0_0.index t 0 * 16 + 1 * (j 0).val = (j 0).val; rw [show win0_0.index t 0 = 0 from rfl]; omega
  | ⟨1, _⟩ => show win0_0.index t 1 * 8192 + 1 * (j 1).val = (j 1).val; rw [show win0_0.index t 1 = 0 from rfl]; omega

/-- The staged embedding table is the argument array. -/
theorem embedding_eq (c : Dev nD) (t : Fin cfg0.N) :
    (iblk m c 1 t : Vec F S8192x128 .f32) = m ((c : Thread nD τ).loc main_arg1) := by
  funext j
  unfold iblk
  rw [View.read_apply]
  refine Eq.trans ?_ (congrFun (V_main_arg1 m c) j)
  show V m c main_arg1 _ = V m c main_arg1 j
  congr 1
  funext a
  apply Fin.ext
  match a with
  | ⟨0, _⟩ => show win0_1.index t 0 * 8192 + 1 * (j 0).val = (j 0).val; rw [show win0_1.index t 0 = 0 from rfl]; omega
  | ⟨1, _⟩ => show win0_1.index t 1 * 128 + 1 * (j 1).val = (j 1).val; rw [show win0_1.index t 1 = 0 from rfl]; omega

/-- The staged query weights are the argument array. -/
theorem queryWeights_eq (c : Dev nD) (t : Fin cfg0.N) :
    (iblk m c 2 t : Vec F S64x128 .f32) = m ((c : Thread nD τ).loc main_arg4) := by
  funext j
  unfold iblk
  rw [View.read_apply]
  refine Eq.trans ?_ (congrFun (V_main_arg4 m c) j)
  show V m c main_arg4 _ = V m c main_arg4 j
  congr 1
  funext a
  apply Fin.ext
  match a with
  | ⟨0, _⟩ => show win0_2.index t 0 * 64 + 1 * (j 0).val = (j 0).val; rw [show win0_2.index t 0 = 0 from rfl]; omega
  | ⟨1, _⟩ => show win0_2.index t 1 * 128 + 1 * (j 1).val = (j 1).val; rw [show win0_2.index t 1 = 0 from rfl]; omega

/-- The staged query bias is the argument re-laid as a row. -/
theorem queryBiasRow_eq (c : Dev nD) (t : Fin cfg0.N) :
    (iblk m c 3 t : Vec F S1x64 .f32) = shapeCast S1x64 (m ((c : Thread nD τ).loc main_arg5)) shapeCasts_S64_S1x64 := by
  funext j
  unfold iblk
  rw [View.read_apply]
  refine Eq.trans ?_ (congrFun (queryBias_eq m c) j)
  show V m c main_v0 _ = V m c main_v0 j
  congr 1
  funext a
  apply Fin.ext
  match a with
  | ⟨0, _⟩ => show win0_3.index t 0 * 1 + 1 * (j 0).val = (j 0).val; rw [show win0_3.index t 0 = 0 from rfl]; omega
  | ⟨1, _⟩ => show win0_3.index t 1 * 64 + 1 * (j 1).val = (j 1).val; rw [show win0_3.index t 1 = 0 from rfl]; omega

/-- The staged key weights are the argument array. -/
theorem keyWeights_eq (c : Dev nD) (t : Fin cfg0.N) :
    (iblk m c 4 t : Vec F S64x128 .f32) = m ((c : Thread nD τ).loc main_arg2) := by
  funext j
  unfold iblk
  rw [View.read_apply]
  refine Eq.trans ?_ (congrFun (V_main_arg2 m c) j)
  show V m c main_arg2 _ = V m c main_arg2 j
  congr 1
  funext a
  apply Fin.ext
  match a with
  | ⟨0, _⟩ => show win0_4.index t 0 * 64 + 1 * (j 0).val = (j 0).val; rw [show win0_4.index t 0 = 0 from rfl]; omega
  | ⟨1, _⟩ => show win0_4.index t 1 * 128 + 1 * (j 1).val = (j 1).val; rw [show win0_4.index t 1 = 0 from rfl]; omega

/-- The staged key bias is the argument re-laid as a column. -/
theorem keyBiasCol_eq (c : Dev nD) (t : Fin cfg0.N) :
    (iblk m c 5 t : Vec F S64x1 .f32) = shapeCast S64x1 (m ((c : Thread nD τ).loc main_arg3)) shapeCasts_S64_S64x1 := by
  funext j
  unfold iblk
  rw [View.read_apply]
  refine Eq.trans ?_ (congrFun (keyBias_eq m c) j)
  show V m c main_v1 _ = V m c main_v1 j
  congr 1
  funext a
  apply Fin.ext
  match a with
  | ⟨0, _⟩ => show win0_5.index t 0 * 64 + 1 * (j 0).val = (j 0).val; rw [show win0_5.index t 0 = 0 from rfl]; omega
  | ⟨1, _⟩ => show win0_5.index t 1 * 1 + 1 * (j 1).val = (j 1).val; rw [show win0_5.index t 1 = 0 from rfl]; omega

/-- Row `r` of the slab of embedding rows loaded at point `t` is row `512 t + r` of the table. -/
theorem embRows_apply (t : Fin cfg0.N) (x1 : Vec F S8192x128 .f32) (r : Fin 512) (d : Fin 128) (hr : 512 * t.val + r.val < 8192) :
    embRows (grid0.coords t) x1 (ix2 r d) = x1 (ix2 (⟨512 * t.val + r.val, hr⟩ : Fin 8192) d) := by
  show x1 _ = x1 _
  congr 1
  funext a
  apply Fin.ext
  match a with
  | ⟨0, _⟩ => show k0_off1 (grid0.coords t) 0 + 1 * r.val = 512 * t.val + r.val
              rw [k0_off1_eq]; show 512 * ((grid0.coords t) 0).val + 1 * r.val = _; rw [coord_val]; omega
  | ⟨1, _⟩ => show k0_off1 (grid0.coords t) 1 + 1 * d.val = d.val
              rw [k0_off1_eq]; show 0 + 1 * d.val = _; omega

/-- Column `r` of the slab of belief columns loaded at point `t` is column `512 t + r` of the beliefs. -/
theorem beliefCols_apply (t : Fin cfg0.N) (x0 : Vec F S16x8192 .f32) (b : Fin 16) (r : Fin 512) (hr : 512 * t.val + r.val < 8192) :
    beliefCols (grid0.coords t) x0 (ix2 b r) = x0 (ix2 b (⟨512 * t.val + r.val, hr⟩ : Fin 8192)) := by
  show x0 _ = x0 _
  congr 1
  funext a
  apply Fin.ext
  match a with
  | ⟨0, _⟩ => show k0_off2 (grid0.coords t) 0 + 1 * b.val = b.val
              rw [k0_off2_eq]; show 0 + 1 * b.val = _; omega
  | ⟨1, _⟩ => show k0_off2 (grid0.coords t) 1 + 1 * r.val = 512 * t.val + r.val
              rw [k0_off2_eq]; show 512 * ((grid0.coords t) 0).val + 1 * r.val = _; rw [coord_val]; omega

end Cert.KernelIdeal.Blocks

end
-- ==== Proof.KernelSteps.lean ====
/-
  The grid as a recurrence. After the first point the scratch holds the key table and the output block the first
  block's contribution added to zero; every later point leaves the scratch alone and adds its block's contribution
  to what the point before left in the output block. The two carried buffers after any point are stated here as one
  step function of the program's arguments, the same at every point.
-/
import proofs.«139755_g5935644803188_cont_9to1c4b_610_5_alg».proof.Proof.KernelBlocks

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Steps

open Cert.KernelIdeal Cert.KernelIdeal.Gen Cert.KernelIdeal.Pieces Cert.KernelIdeal.Blocks

variable {F : FTy → Type} [FloatOps F]
variable (m : (ℓ : Loc nD τ sig) → Buf (Elt F) ℓ)

/-- The program's six arguments on core `c`, and the two biases as the host re-lays them. -/
abbrev beliefArr (c : Dev nD) : Vec F S16x8192 .f32 := m ((c : Thread nD τ).loc main_arg0)
abbrev embArr (c : Dev nD) : Vec F S8192x128 .f32 := m ((c : Thread nD τ).loc main_arg1)
abbrev keyW (c : Dev nD) : Vec F S64x128 .f32 := m ((c : Thread nD τ).loc main_arg2)
abbrev keyB (c : Dev nD) : Vec F S64 .f32 := m ((c : Thread nD τ).loc main_arg3)
abbrev queryW (c : Dev nD) : Vec F S64x128 .f32 := m ((c : Thread nD τ).loc main_arg4)
abbrev queryB (c : Dev nD) : Vec F S64 .f32 := m ((c : Thread nD τ).loc main_arg5)
abbrev queryBRow (c : Dev nD) : Vec F S1x64 .f32 := shapeCast S1x64 (queryB m c) shapeCasts_S64_S1x64
abbrev keyBCol (c : Dev nD) : Vec F S64x1 .f32 := shapeCast S64x1 (keyB m c) shapeCasts_S64_S64x1

/-- The key table the first point stores in the scratch. -/
abbrev keyTab (c : Dev nD) : Vec F S64x8192 .bf16 := k0_pay1 (keyW m c) (embArr m c) (keyBCol m c)

/-- One point's update of the output block: over the key table `kt` the scratch holds and the block `acc` the
    point before left, the block's contribution added to `acc`. -/
abbrev step (c : Dev nD) (t : Fin cfg0.N) (kt : Vec F S64x8192 .bf16) (acc : Vec F S16x8192 .f32) : Vec F S16x8192 .f32 :=
  k0_pay3 (embRows (grid0.coords t) (embArr m c)) (queryW m c) (queryBRow m c) kt (beliefCols (grid0.coords t) (beliefArr m c)) acc

/-- After the first point: the key table in the scratch, the first step from the zero block in the output block. -/
theorem outsAt_first (c : Dev nD) (t : Fin cfg0.N) (h0 : t.val % 16 = 0) :
    outsAt0 m c t.val t.isLt = (step m c t (keyTab m c) k0_pay2, keyTab m c) := by
  rw [outsAt0_A m c t h0]
  refine Prod.ext ?_ ?_
  · dsimp only
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).trans ?_
    rw [beliefs_eq m c t, embedding_eq m c t, queryWeights_eq m c t, queryBiasRow_eq m c t, keyWeights_eq m c t, keyBiasCol_eq m c t]
  · dsimp only
    refine (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).trans ?_
    rw [embedding_eq m c t, keyWeights_eq m c t, keyBiasCol_eq m c t]

/-- After a later point: the scratch as the point before left it, one more step in the output block. -/
theorem outsAt_later (c : Dev nD) (t : Fin cfg0.N) (h0 : ¬t.val % 16 = 0) :
    outsAt0 m c t.val t.isLt
      = (step m c t (outsAt0 m c (t.val - 1) (Nat.lt_of_le_of_lt (Nat.sub_le _ _) t.isLt)).2
            (outsAt0 m c (t.val - 1) (Nat.lt_of_le_of_lt (Nat.sub_le _ _) t.isLt)).1,
          (outsAt0 m c (t.val - 1) (Nat.lt_of_le_of_lt (Nat.sub_le _ _) t.isLt)).2) := by
  rw [outsAt0_B m c t h0]
  refine Prod.ext ?_ ?_
  · dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).1
      (outsAt0 m c (t.val - 1) (Nat.lt_of_le_of_lt (Nat.sub_le _ _) t.isLt)).2).trans ?_
    rw [beliefs_eq m c t, embedding_eq m c t, queryWeights_eq m c t, queryBiasRow_eq m c t]
  · rfl

end Cert.KernelIdeal.Steps

end
-- ==== Proof.Spec.lean ====
/-
  The mathematics both programs compute, stated once over the extended reals.

  From a state embedding table `emb` (8192 states, 128 features) two linear maps give each state a query
  and a key vector of 64 entries; the logit of a pair of states is the inner product of the first state's
  query with the second state's key; each row of logits is normalised by the exponential (a softmax over
  the second state) into a row-stochastic transition weight; and a batch of 16 beliefs over the states is
  pushed through the weights: `prior b j = ∑ i, belief b i · weight i j`.
-/
import Idealize.ShloMosaic.PureOps.Ideal
import Idealize.ShloMosaic.Lib.ValueIdx

noncomputable section

open scoped BigOperators

namespace Cert.Transition

open Idealize.ShloMosaic Idealize.ShloMosaic.ValueIdx

variable (belief : (⟨2, ![16, 8192]⟩ : Shape).Idx → EReal) (emb : (⟨2, ![8192, 128]⟩ : Shape).Idx → EReal)
  (wk : (⟨2, ![64, 128]⟩ : Shape).Idx → EReal) (bk : (⟨1, ![64]⟩ : Shape).Idx → EReal)
  (wq : (⟨2, ![64, 128]⟩ : Shape).Idx → EReal) (bq : (⟨1, ![64]⟩ : Shape).Idx → EReal)

/-- Entry `h` of state `i`'s query vector: the embedding row against row `h` of the query weights, plus the bias. -/
def query (i : Fin 8192) (h : Fin 64) : EReal := (∑ d : Fin 128, emb (ix2 i d) * wq (ix2 h d)) + bq (ix1 h)

/-- Entry `h` of state `j`'s key vector: the embedding row against row `h` of the key weights, plus the bias. -/
def key (j : Fin 8192) (h : Fin 64) : EReal := (∑ d : Fin 128, emb (ix2 j d) * wk (ix2 h d)) + bk (ix1 h)

/-- The logit of the pair (i, j): state `i`'s query against state `j`'s key. -/
def logit (i j : Fin 8192) : EReal := ∑ h : Fin 64, query emb wq bq i h * key emb wk bk j h

/-- The transition weight from `i` to `j`: the exponential of the logit times the reciprocal of the row's sum of
    exponentials. -/
def weight (i j : Fin 8192) : EReal :=
  Ideal.exp (logit emb wk bk wq bq i j) * Ideal.div 1 (∑ j' : Fin 8192, Ideal.exp (logit emb wk bk wq bq i j'))

/-- The prior belief: each batch row of `belief` pushed through the transition weights. -/
def prior : (⟨2, ![16, 8192]⟩ : Shape).Idx → EReal :=
  fun y => ∑ i : Fin 8192, belief (ix2 (y 0) i) * weight emb wk bk wq bq i (y 1)

/-! ## One block of 512 states, as the kernel's body sees it

At one grid point the body works on 512 consecutive states: their embedding rows `e`, the query weights `wq`,
the query bias as a row `bqRow`, the transposed key table `kT` (entry (h, j) is entry `h` of state `j`'s key),
and the 512 belief columns `w` of the block. -/

/-- The logit of the block's `r`-th state against state `j`, from the block's embedding rows and the transposed key table. -/
def blockLogit (e : (⟨2, ![512, 128]⟩ : Shape).Idx → EReal) (wq : (⟨2, ![64, 128]⟩ : Shape).Idx → EReal)
    (bqRow : (⟨2, ![1, 64]⟩ : Shape).Idx → EReal) (kT : (⟨2, ![64, 8192]⟩ : Shape).Idx → EReal) (r : Fin 512) (j : Fin 8192) : EReal :=
  ∑ h : Fin 64, ((∑ d : Fin 128, e (ix2 r d) * wq (ix2 h d)) + bqRow (ix2 0 h)) * kT (ix2 h j)

/-- The transition weight from the block's `r`-th state to state `j`. -/
def blockWeight (e : (⟨2, ![512, 128]⟩ : Shape).Idx → EReal) (wq : (⟨2, ![64, 128]⟩ : Shape).Idx → EReal)
    (bqRow : (⟨2, ![1, 64]⟩ : Shape).Idx → EReal) (kT : (⟨2, ![64, 8192]⟩ : Shape).Idx → EReal) (r : Fin 512) (j : Fin 8192) : EReal :=
  Ideal.exp (blockLogit e wq bqRow kT r j) * Ideal.div 1 (∑ j' : Fin 8192, Ideal.exp (blockLogit e wq bqRow kT r j'))

/-- The transposed key table: entry (h, j) from row `h` of the key weights against state `j`'s embedding, plus the
    bias held as a column. -/
def keyTable (wk : (⟨2, ![64, 128]⟩ : Shape).Idx → EReal) (emb : (⟨2, ![8192, 128]⟩ : Shape).Idx → EReal)
    (bkCol : (⟨2, ![64, 1]⟩ : Shape).Idx → EReal) : (⟨2, ![64, 8192]⟩ : Shape).Idx → EReal :=
  fun y => (∑ d : Fin 128, wk (ix2 (y 0) d) * emb (ix2 (y 1) d)) + bkCol (ix2 (y 0) 0)

end Cert.Transition

end
-- ==== Proof.KernelPayload.lean ====
/-
  The kernel body's three stored values, read at an index at the ideal values, in the specification's vocabulary:
  the transposed key table written at the first grid point, the zero the accumulator starts from, and the
  accumulator's update at every grid point, the old accumulator plus the block's beliefs pushed through the
  block's transition weights.
-/
import proofs.«139755_g5935644803188_cont_9to1c4b_610_5_alg».proof.Proof.Gen.KernelIdeal.Skeleton
import proofs.«139755_g5935644803188_cont_9to1c4b_610_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Transition

open Cert.KernelIdeal Cert.KernelIdeal.Gen Idealize.ShloMosaic Idealize.ShloMosaic.ValueIdx

variable [Cert.KernelIdeal.Facts]

/-! ## Layout steps read at an index: a column broadcast along the rows, and a vector cast to a column -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An `[a]` vector cast to an `[a, 1]` column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The first stored value: the transposed key table -/

/- The operand indices of the key table's contraction, axis by axis: the kept axis reads the result index, the contracted axis the
   contraction's one coordinate. -/
theorem lhs_keyT_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhs_keyT_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhs_keyT_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhs_keyT_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The key weights against the embedding table, contracted over the 128 features of both: entry `(h, j)` is the
    inner product of row `h` of the weights with row `j` of the table. -/
theorem keyT_matmul_apply (A : FVec Ideal S64x128 .f32) (B : FVec Ideal S8192x128 .f32) (h : Fin 64) (j : Fin 8192) :
    matmul dot_S64x128_S8192x128_S64x8192_1_1_0_0_n_n none A B (constant (F := Ideal) S64x8192 .f32 0x00000000#32) (ix2 h j)
      = ∑ d : Fin 128, A (ix2 h d) * B (ix2 j d) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 h j) ((contrEquiv1 dot_S64x128_S8192x128_S64x8192_1_1_0_0_n_n 128 rfl rfl).symm k) = ix2 h k := funext fun a => Fin.ext (by
    match a with
    | ⟨0, _⟩ => exact lhs_keyT_0 _ _
    | ⟨1, _⟩ => exact (lhs_keyT_1 _ _).trans hk)
  have er : dot_S64x128_S8192x128_S64x8192_1_1_0_0_n_n.rhsIdx (ix2 h j) ((contrEquiv1 dot_S64x128_S8192x128_S64x8192_1_1_0_0_n_n 128 rfl rfl).symm k) = ix2 j k := funext fun a => Fin.ext (by
    match a with
    | ⟨0, _⟩ => exact rhs_keyT_0 _ _
    | ⟨1, _⟩ => exact (rhs_keyT_1 _ _).trans hk)
  rw [el, er]

/-- The first stored value is the transposed key table: the product above plus the bias column, in whatever format. -/
theorem pay1_eq (v32 : Vec Ideal S64x128 .f32) (v33 : Vec Ideal S8192x128 .f32) (v35 : Vec Ideal S64x1 .f32) :
    k0_pay1 (F := Ideal) v32 v33 v35 = keyTable v32 v33 v35 := by
  funext y
  obtain ⟨h, j, rfl⟩ : ∃ (h : Fin 64) (j : Fin 8192), y = ix2 h j := ⟨y 0, y 1, eq_ix2 y⟩
  unfold k0_pay1 keyTable
  simp only [shapeCast_self]
  rw [truncf_apply, addf_apply, keyT_matmul_apply, broadcastTo_a1_ab_apply]

/-! ## The second stored value: the accumulator's start -/

/-- The second stored value is zero everywhere. -/
theorem pay2_apply (y : S16x8192.Idx) : k0_pay2 (F := Ideal) y = 0 := by
  unfold k0_pay2
  exact Ideal.ofBits_zero_f32

/-! ## The third stored value: the accumulator plus the block's beliefs through the block's weights -/

/- The operand indices of the query projection's contraction, axis by axis: the kept axis reads the result index, the contracted axis the
   contraction's one coordinate. -/
theorem lhs_qproj_0 (i : S512x64.Idx) (q : dot_S512x128_S64x128_S512x64_1_1_0_0_n_n.contr.Idx) :
    (dot_S512x128_S64x128_S512x64_1_1_0_0_n_n.lhsIdx i q 0).val = (i 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem lhs_qproj_1 (i : S512x64.Idx) (q : dot_S512x128_S64x128_S512x64_1_1_0_0_n_n.contr.Idx) :
    (dot_S512x128_S64x128_S512x64_1_1_0_0_n_n.lhsIdx i q 1).val = (q ⟨0, by decide⟩).val :=
  dot_S512x128_S64x128_S512x64_1_1_0_0_n_n.lhsIdx_val_of_single rfl i q
theorem rhs_qproj_0 (i : S512x64.Idx) (q : dot_S512x128_S64x128_S512x64_1_1_0_0_n_n.contr.Idx) :
    (dot_S512x128_S64x128_S512x64_1_1_0_0_n_n.rhsIdx i q 0).val = (i 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem rhs_qproj_1 (i : S512x64.Idx) (q : dot_S512x128_S64x128_S512x64_1_1_0_0_n_n.contr.Idx) :
    (dot_S512x128_S64x128_S512x64_1_1_0_0_n_n.rhsIdx i q 1).val = (q ⟨0, by decide⟩).val :=
  dot_S512x128_S64x128_S512x64_1_1_0_0_n_n.rhsIdx_val_of_single rfl i q

/-- The block's embedding rows against the query weights, contracted over the 128 features of both. -/
theorem qproj_matmul_apply (A : FVec Ideal S512x128 .f32) (B : FVec Ideal S64x128 .f32) (r : Fin 512) (h : Fin 64) :
    matmul dot_S512x128_S64x128_S512x64_1_1_0_0_n_n none A B (constant (F := Ideal) S512x64 .f32 0x00000000#32) (ix2 r h)
      = ∑ d : Fin 128, A (ix2 r d) * B (ix2 h d) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 r h) ((contrEquiv1 dot_S512x128_S64x128_S512x64_1_1_0_0_n_n 128 rfl rfl).symm k) = ix2 r k := funext fun a => Fin.ext (by
    match a with
    | ⟨0, _⟩ => exact lhs_qproj_0 _ _
    | ⟨1, _⟩ => exact (lhs_qproj_1 _ _).trans hk)
  have er : dot_S512x128_S64x128_S512x64_1_1_0_0_n_n.rhsIdx (ix2 r h) ((contrEquiv1 dot_S512x128_S64x128_S512x64_1_1_0_0_n_n 128 rfl rfl).symm k) = ix2 h k := funext fun a => Fin.ext (by
    match a with
    | ⟨0, _⟩ => exact rhs_qproj_0 _ _
    | ⟨1, _⟩ => exact (rhs_qproj_1 _ _).trans hk)
  rw [el, er]

/- The operand indices of the logits' contraction, axis by axis: the kept axis reads the result index, the contracted axis the
   contraction's one coordinate. -/
theorem lhs_logit_0 (i : S512x8192.Idx) (q : dot_S512x64_S64x8192_S512x8192_1_0_0_1_n_n.contr.Idx) :
    (dot_S512x64_S64x8192_S512x8192_1_0_0_1_n_n.lhsIdx i q 0).val = (i 0).val := by
  unfold DotDims.lhsIdx
  rw [dif_neg (show ¬(0 : Fin S512x64.rank) ∈ dot_S512x64_S64x8192_S512x8192_1_0_0_1_n_n.lhsBatch by decide), dif_pos (show (0 : Fin S512x64.rank) ∈ dot_S512x64_S64x8192_S512x8192_1_0_0_1_n_n.lhsNonContracting by decide)]
  rfl
theorem lhs_logit_1 (i : S512x8192.Idx) (q : dot_S512x64_S64x8192_S512x8192_1_0_0_1_n_n.contr.Idx) :
    (dot_S512x64_S64x8192_S512x8192_1_0_0_1_n_n.lhsIdx i q 1).val = (q ⟨0, by decide⟩).val :=
  dot_S512x64_S64x8192_S512x8192_1_0_0_1_n_n.lhsIdx_val_of_single rfl i q
theorem rhs_logit_0 (i : S512x8192.Idx) (q : dot_S512x64_S64x8192_S512x8192_1_0_0_1_n_n.contr.Idx) :
    (dot_S512x64_S64x8192_S512x8192_1_0_0_1_n_n.rhsIdx i q 0).val = (q ⟨0, by decide⟩).val :=
  dot_S512x64_S64x8192_S512x8192_1_0_0_1_n_n.rhsIdx_val_of_single rfl i q
theorem rhs_logit_1 (i : S512x8192.Idx) (q : dot_S512x64_S64x8192_S512x8192_1_0_0_1_n_n.contr.Idx) :
    (dot_S512x64_S64x8192_S512x8192_1_0_0_1_n_n.rhsIdx i q 1).val = (i 1).val := by
  unfold DotDims.rhsIdx
  rw [dif_neg (show ¬(1 : Fin S64x8192.rank) ∈ dot_S512x64_S64x8192_S512x8192_1_0_0_1_n_n.rhsBatch by decide), dif_pos (show (1 : Fin S64x8192.rank) ∈ dot_S512x64_S64x8192_S512x8192_1_0_0_1_n_n.rhsNonContracting by decide)]
  rfl

/-- The block's queries against the transposed key table, contracted over the 64 entries. -/
theorem logit_matmul_apply (A : FVec Ideal S512x64 .bf16) (B : FVec Ideal S64x8192 .bf16) (r : Fin 512) (j : Fin 8192) :
    matmul dot_S512x64_S64x8192_S512x8192_1_0_0_1_n_n none A B (constant (F := Ideal) S512x8192 .f32 0x00000000#32) (ix2 r j)
      = ∑ h : Fin 64, A (ix2 r h) * B (ix2 h j) := by
  simp only [matmul]
  rw [Ideal.matmul_constant_zero_apply, ← Equiv.sum_comp (contrEquiv1 dot_S512x64_S64x8192_S512x8192_1_0_0_1_n_n 64 rfl rfl).symm]
  refine Finset.sum_congr rfl fun k _ => ?_
  have hk := contrEquiv1_symm_val dot_S512x64_S64x8192_S512x8192_1_0_0_1_n_n 64 rfl rfl k
  have el : dot_S512x64_S64x8192_S512x8192_1_0_0_1_n_n.lhsIdx (ix2 r j) ((contrEquiv1 dot_S512x64_S64x8192_S512x8192_1_0_0_1_n_n 64 rfl rfl).symm k) = ix2 r k := funext fun a => Fin.ext (by
    match a with
    | ⟨0, _⟩ => exact lhs_logit_0 _ _
    | ⟨1, _⟩ => exact (lhs_logit_1 _ _).trans hk)
  have er : dot_S512x64_S64x8192_S512x8192_1_0_0_1_n_n.rhsIdx (ix2 r j) ((contrEquiv1 dot_S512x64_S64x8192_S512x8192_1_0_0_1_n_n 64 rfl rfl).symm k) = ix2 k j := funext fun a => Fin.ext (by
    match a with
    | ⟨0, _⟩ => exact (rhs_logit_0 _ _).trans hk
    | ⟨1, _⟩ => exact rhs_logit_1 _ _)
  rw [el, er]

/- The operand indices of the belief push's contraction, axis by axis: the kept axis reads the result index, the contracted axis the
   contraction's one coordinate. -/
theorem lhs_push_0 (i : S16x8192.Idx) (q : dot_S16x512_S512x8192_S16x8192_1_0_0_1_n_n.contr.Idx) :
    (dot_S16x512_S512x8192_S16x8192_1_0_0_1_n_n.lhsIdx i q 0).val = (i 0).val := by
  unfold DotDims.lhsIdx
  rw [dif_neg (show ¬(0 : Fin S16x512.rank) ∈ dot_S16x512_S512x8192_S16x8192_1_0_0_1_n_n.lhsBatch by decide), dif_pos (show (0 : Fin S16x512.rank) ∈ dot_S16x512_S512x8192_S16x8192_1_0_0_1_n_n.lhsNonContracting by decide)]
  rfl
theorem lhs_push_1 (i : S16x8192.Idx) (q : dot_S16x512_S512x8192_S16x8192_1_0_0_1_n_n.contr.Idx) :
    (dot_S16x512_S512x8192_S16x8192_1_0_0_1_n_n.lhsIdx i q 1).val = (q ⟨0, by decide⟩).val :=
  dot_S16x512_S512x8192_S16x8192_1_0_0_1_n_n.lhsIdx_val_of_single rfl i q
theorem rhs_push_0 (i : S16x8192.Idx) (q : dot_S16x512_S512x8192_S16x8192_1_0_0_1_n_n.contr.Idx) :
    (dot_S16x512_S512x8192_S16x8192_1_0_0_1_n_n.rhsIdx i q 0).val = (q ⟨0, by decide⟩).val :=
  dot_S16x512_S512x8192_S16x8192_1_0_0_1_n_n.rhsIdx_val_of_single rfl i q
theorem rhs_push_1 (i : S16x8192.Idx) (q : dot_S16x512_S512x8192_S16x8192_1_0_0_1_n_n.contr.Idx) :
    (dot_S16x512_S512x8192_S16x8192_1_0_0_1_n_n.rhsIdx i q 1).val = (i 1).val := by
  unfold DotDims.rhsIdx
  rw [dif_neg (show ¬(1 : Fin S512x8192.rank) ∈ dot_S16x512_S512x8192_S16x8192_1_0_0_1_n_n.rhsBatch by decide), dif_pos (show (1 : Fin S512x8192.rank) ∈ dot_S16x512_S512x8192_S16x8192_1_0_0_1_n_n.rhsNonContracting by decide)]
  rfl

/-- The block's beliefs against the block's weights, contracted over the block's 512 states. -/
theorem push_matmul_apply (A : FVec Ideal S16x512 .bf16) (B : FVec Ideal S512x8192 .bf16) (b : Fin 16) (j : Fin 8192) :
    matmul dot_S16x512_S512x8192_S16x8192_1_0_0_1_n_n none A B (constant (F := Ideal) S16x8192 .f32 0x00000000#32) (ix2 b j)
      = ∑ r : Fin 512, A (ix2 b r) * B (ix2 r j) := by
  simp only [matmul]
  rw [Ideal.matmul_constant_zero_apply, ← Equiv.sum_comp (contrEquiv1 dot_S16x512_S512x8192_S16x8192_1_0_0_1_n_n 512 rfl rfl).symm]
  refine Finset.sum_congr rfl fun k _ => ?_
  have hk := contrEquiv1_symm_val dot_S16x512_S512x8192_S16x8192_1_0_0_1_n_n 512 rfl rfl k
  have el : dot_S16x512_S512x8192_S16x8192_1_0_0_1_n_n.lhsIdx (ix2 b j) ((contrEquiv1 dot_S16x512_S512x8192_S16x8192_1_0_0_1_n_n 512 rfl rfl).symm k) = ix2 b k := funext fun a => Fin.ext (by
    match a with
    | ⟨0, _⟩ => exact lhs_push_0 _ _
    | ⟨1, _⟩ => exact (lhs_push_1 _ _).trans hk)
  have er : dot_S16x512_S512x8192_S16x8192_1_0_0_1_n_n.rhsIdx (ix2 b j) ((contrEquiv1 dot_S16x512_S512x8192_S16x8192_1_0_0_1_n_n 512 rfl rfl).symm k) = ix2 k j := funext fun a => Fin.ext (by
    match a with
    | ⟨0, _⟩ => exact (rhs_push_0 _ _).trans hk
    | ⟨1, _⟩ => exact rhs_push_1 _ _)
  rw [el, er]

/-- A row's sum along the lanes, kept as a column: at row `r`, the sum of the row's 8192 entries. -/
theorem laneSum_apply (X : FVec Ideal S512x8192 .f32) (hφ : FKind.Formats .f32)
    (hacc : (0x00000000#32 : BitVec 32) = FKind.add.neutral .f32 hφ) (r : Fin 512) (u : Fin 1) :
    shapeCast S512x1 (multiReduction (F := Ideal) .add [1] S512 X 0x00000000#32 reduces_S512x8192_S512 hφ hacc) shapeCasts_S512_S512x1 (ix2 r u)
      = ∑ k : Fin 8192, X (ix2 r k) := by
  rw [shapeCast_a_a1_apply]
  refine (Ideal.multiReduction_add_single X 0x00000000#32 reduces_S512x8192_S512 hφ hacc (ix1 r)).trans ?_
  exact Finset.sum_congr rfl fun k _ => congrArg X (funext fun a => Fin.ext (by match a with | ⟨0, _⟩ => rfl | ⟨1, _⟩ => rfl))

/-- The block's logits as the body computes them: the embedding rows through the query weights, the bias row
    added to every row, against the transposed key table. -/
def bodyLogits (v5 : FVec Ideal S512x128 .f32) (v6 : FVec Ideal S64x128 .f32) (v8 : FVec Ideal S1x64 .f32)
    (v13 : FVec Ideal S64x8192 .bf16) : FVec Ideal S512x8192 .f32 :=
  matmul dot_S512x64_S64x8192_S512x8192_1_0_0_1_n_n none
    (truncf .bf16 (addf (matmul dot_S512x128_S64x128_S512x64_1_1_0_0_n_n none v5 v6 (constant (F := Ideal) S512x64 .f32 0x00000000#32))
      (broadcastTo S512x64 (shapeCast S1x64 v8 shapeCasts_S1x64_S1x64) broadcasts_S1x64_S512x64)) bitsLt_bf16_f32)
    v13 (constant (F := Ideal) S512x8192 .f32 0x00000000#32)

/-- They are the block's logits of the specification. -/
theorem bodyLogits_apply (v5 : FVec Ideal S512x128 .f32) (v6 : FVec Ideal S64x128 .f32) (v8 : FVec Ideal S1x64 .f32)
    (v13 : FVec Ideal S64x8192 .bf16) (r : Fin 512) (j : Fin 8192) :
    bodyLogits v5 v6 v8 v13 (ix2 r j) = blockLogit v5 v6 v8 v13 r j := by
  unfold bodyLogits blockLogit
  rw [logit_matmul_apply]
  refine Finset.sum_congr rfl fun h _ => ?_
  rw [truncf_apply, addf_apply, qproj_matmul_apply, shapeCast_self, broadcastTo_1b_ab_apply]

/-- The block's weights as the body computes them: the exponential of each logit times the reciprocal of its row's
    sum of exponentials. -/
def bodyWeights (v5 : FVec Ideal S512x128 .f32) (v6 : FVec Ideal S64x128 .f32) (v8 : FVec Ideal S1x64 .f32)
    (v13 : FVec Ideal S64x8192 .bf16) : FVec Ideal S512x8192 .bf16 :=
  truncf .bf16 (mulf (exp (bodyLogits v5 v6 v8 v13))
    (broadcastTo S512x8192 (divf (broadcast S512x1 (Scalar.ofBits (F := Ideal) .f32 0x3F800000#32))
      (shapeCast S512x1 (multiReduction .add [1] S512 (exp (bodyLogits v5 v6 v8 v13)) 0x00000000#32 reduces_S512x8192_S512 (.inl rfl) rfl)
        shapeCasts_S512_S512x1)) broadcasts_S512x1_S512x8192)) bitsLt_bf16_f32

/-- They are the block's transition weights of the specification. -/
theorem bodyWeights_apply (v5 : FVec Ideal S512x128 .f32) (v6 : FVec Ideal S64x128 .f32) (v8 : FVec Ideal S1x64 .f32)
    (v13 : FVec Ideal S64x8192 .bf16) (r : Fin 512) (j : Fin 8192) :
    bodyWeights v5 v6 v8 v13 (ix2 r j) = blockWeight v5 v6 v8 v13 r j := by
  have hexp : ∀ j' : Fin 8192, exp (bodyLogits v5 v6 v8 v13) (ix2 r j') = Ideal.exp (blockLogit v5 v6 v8 v13 r j') := fun j' => by
    show Ideal.exp (bodyLogits v5 v6 v8 v13 (ix2 r j')) = _
    rw [bodyLogits_apply]
  unfold bodyWeights blockWeight
  rw [truncf_apply, mulf_apply, broadcastTo_a1_ab_apply, divf_apply, broadcast_apply]
  refine congrArg₂ (· * ·) (hexp j) (congrArg₂ Ideal.div (IdealRules.sign_bit.ideal_onePat .f32) ?_)
  exact (laneSum_apply _ _ _ r 0).trans (Finset.sum_congr rfl fun k _ => hexp k)

/-- The third stored value over the stages above. -/
theorem pay3_eq_stages (v5 : Vec Ideal S512x128 .f32) (v6 : Vec Ideal S64x128 .f32) (v8 : Vec Ideal S1x64 .f32)
    (v13 : Vec Ideal S64x8192 .bf16) (v25 : Vec Ideal S16x512 .f32) (v27 : Vec Ideal S16x8192 .f32) :
    k0_pay3 (F := Ideal) v5 v6 v8 v13 v25 v27
      = addf (shapeCast S16x8192 v27 shapeCasts_S16x8192_S16x8192)
          (matmul dot_S16x512_S512x8192_S16x8192_1_0_0_1_n_n none (truncf .bf16 v25 bitsLt_bf16_f32) (bodyWeights v5 v6 v8 v13)
            (constant (F := Ideal) S16x8192 .f32 0x00000000#32)) := rfl

/-- The third stored value: the accumulator read before it, plus the block's beliefs pushed through the block's
    transition weights. -/
theorem pay3_apply (v5 : Vec Ideal S512x128 .f32) (v6 : Vec Ideal S64x128 .f32) (v8 : Vec Ideal S1x64 .f32) (v13 : Vec Ideal S64x8192 .bf16)
    (v25 : Vec Ideal S16x512 .f32) (v27 : Vec Ideal S16x8192 .f32) (b : Fin 16) (j : Fin 8192) :
    k0_pay3 (F := Ideal) v5 v6 v8 v13 v25 v27 (ix2 b j) = v27 (ix2 b j) + ∑ r : Fin 512, v25 (ix2 b r) * blockWeight v5 v6 v8 v13 r j := by
  rw [pay3_eq_stages, addf_apply, shapeCast_self, push_matmul_apply]
  refine congrArg (v27 (ix2 b j) + ·) (Finset.sum_congr rfl fun r _ => ?_)
  rw [truncf_apply, bodyWeights_apply]

end Cert.Transition

end
-- ==== Proof.RealLaws.lean ====
/-
  Extended reals that are real numbers, and the three laws of real arithmetic this certificate leans on:
  a softmax does not change when a real constant is subtracted from every logit of the row; the maximum of
  finitely many (and at least one) real numbers is a real number; and a sum over 8192 states is the sum over
  16 blocks of 512 consecutive states each.
-/
import Idealize.ShloMosaic.PureOps.Ideal

noncomputable section

open scoped BigOperators

namespace Cert.Transition

open Idealize.ShloMosaic

/-- An extended real that is a real number (neither infinity). -/
def IsReal (x : EReal) : Prop := ∃ r : ℝ, x = (r : EReal)

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.exp {x : EReal} (hx : IsReal x) : IsReal (Ideal.exp x) := by
  obtain ⟨a, rfl⟩ := hx
  exact ⟨Real.exp a, rfl⟩

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- SHIFT INVARIANCE of the softmax, on real logits: subtracting a real `m` from every logit of the row (and
    starting the row's sum from zero) gives the same weight as the unshifted exponential times the reciprocal
    of the unshifted sum — numerator and denominator both carry the factor `e^(-m)`. -/
theorem softmax_shift {ι : Type*} [Fintype ι] [Nonempty ι] (l : ι → EReal) (hl : ∀ k, IsReal (l k)) (m : EReal)
    (hm : IsReal m) (j : ι) :
    Ideal.div (Ideal.exp (l j - m)) (0 + ∑ k, Ideal.exp (l k - m))
      = Ideal.exp (l j) * Ideal.div 1 (∑ k, Ideal.exp (l k)) := by
  choose r hr using hl
  obtain ⟨μ, rfl⟩ := hm
  have hpos1 : (∑ k, Real.exp (r k - μ)) ≠ 0 :=
    (Finset.sum_pos (fun k _ => Real.exp_pos _) Finset.univ_nonempty).ne'
  have hpos2 : (∑ k, Real.exp (r k)) ≠ 0 :=
    (Finset.sum_pos (fun k _ => Real.exp_pos _) Finset.univ_nonempty).ne'
  have e1 : ∀ k, Ideal.exp (l k - (μ : EReal)) = ((Real.exp (r k - μ) : ℝ) : EReal) := fun k => by
    rw [hr k, ← EReal.coe_sub]; rfl
  have e2 : ∀ k, Ideal.exp (l k) = ((Real.exp (r k) : ℝ) : EReal) := fun k => by rw [hr k]; rfl
  simp only [e1, e2, zero_add, ← coe_sum]
  rw [Ideal.div_coe hpos1, Ideal.div_coe hpos2, one_mul, ← EReal.coe_mul, ← EReal.coe_mul]
  congr 1
  have hs : (∑ k, Real.exp (r k - μ)) = (∑ k, Real.exp (r k)) / Real.exp μ := by
    rw [Finset.sum_div]; exact Finset.sum_congr rfl fun k _ => Real.exp_sub _ _
  rw [hs, Real.exp_sub]
  have hμ : Real.exp μ ≠ 0 := (Real.exp_pos μ).ne'
  field_simp

/-- The maximum, from `-∞`, of finitely many real numbers — at least one — is a real number. -/
theorem isReal_fold_max {ι : Type*} [Fintype ι] [Nonempty ι] (f : ι → EReal) (hf : ∀ k, IsReal (f k)) :
    IsReal ((Finset.univ : Finset ι).fold max ⊥ f) := by
  have h1 : (Finset.univ : Finset ι).fold max ⊥ f < ⊤ :=
    (Finset.fold_max_lt _).2 ⟨bot_lt_top, fun k _ => by obtain ⟨r, hr⟩ := hf k; rw [hr]; exact EReal.coe_lt_top r⟩
  have h2 : ⊥ < (Finset.univ : Finset ι).fold max ⊥ f := by
    obtain ⟨k⟩ := ‹Nonempty ι›
    exact (Finset.lt_fold_max _).2 (Or.inr ⟨k, Finset.mem_univ _, by obtain ⟨r, hr⟩ := hf k; rw [hr]; exact EReal.bot_lt_coe r⟩)
  exact ⟨_, (EReal.coe_toReal h1.ne h2.ne').symm⟩

/-- State `512 t + r`: the `r`-th state of block `t`. -/
def blockState (t : Fin 16) (r : Fin 512) : Fin 8192 := ⟨512 * t.val + r.val, by omega⟩

/-- A sum over the 8192 states is the sum over the 16 blocks of the sums over each block's 512 states. -/
theorem sum_blocks {M : Type*} [AddCommMonoid M] (g : Fin 8192 → M) :
    ∑ i, g i = ∑ t : Fin 16, ∑ r : Fin 512, g (blockState t r) := by
  calc ∑ i, g i = ∑ p : Fin 16 × Fin 512, g (finProdFinEquiv p) :=
        (Equiv.sum_comp (finProdFinEquiv (m := 16) (n := 512)) g).symm
    _ = ∑ t : Fin 16, ∑ r : Fin 512, g (finProdFinEquiv (t, r)) := Fintype.sum_prod_type _
    _ = _ := by
      refine Finset.sum_congr rfl fun t _ => Finset.sum_congr rfl fun r _ => congrArg g (Fin.ext ?_)
      show r.val + 512 * t.val = 512 * t.val + r.val
      omega

end Cert.Transition

end
-- ==== Proof.Bridge.lean ====
/-
  The bridge between the two spellings of the same mathematics.

  One side works on the whole table of 8192 states at once; the other walks over 16 blocks of 512 consecutive
  states, holds the keys as a transposed table (entry (h, j) is entry h of state j's key) and the two biases as a
  one-row and a one-column matrix. Here: the transposed table's entries ARE the keys (the products commute); a
  block's logits and weights ARE the whole table's at the block's states; the prior, a sum over all states, is the
  sum over the blocks of the sums over each block's states; and the sets of blocks "up to position n", along which
  a running sum over the blocks grows one block at a time.
-/
import proofs.«139755_g5935644803188_cont_9to1c4b_610_5_alg».proof.Proof.Spec
import proofs.«139755_g5935644803188_cont_9to1c4b_610_5_alg».proof.Proof.RealLaws
import Idealize.ShloMosaic.Lib.ValueIdx
import Idealize.ShloMosaic.Lib.ValueLayout
import Idealize.ShloMosaic.Lib.Pipeline.Value

noncomputable section

open scoped BigOperators

namespace Cert.Transition

open Idealize.ShloMosaic Idealize.ShloMosaic.ValueIdx

variable (belief : (⟨2, ![16, 8192]⟩ : Shape).Idx → EReal) (emb : (⟨2, ![8192, 128]⟩ : Shape).Idx → EReal)
  (wk : (⟨2, ![64, 128]⟩ : Shape).Idx → EReal) (bk : (⟨1, ![64]⟩ : Shape).Idx → EReal)
  (wq : (⟨2, ![64, 128]⟩ : Shape).Idx → EReal) (bq : (⟨1, ![64]⟩ : Shape).Idx → EReal)

/-- An `[a]` array cast to `[a, 1]` reads, at `(i, u)`, the operand at `i`: in row-major order position
    `i · 1 + u` of the result is position `i` of the operand, the unit coordinate `u` being 0. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Entry (h, j) of the transposed key table is entry `h` of state `j`'s key: the same 128 products, each with its
    two factors exchanged, and the same bias. -/
theorem keyTable_apply (bkCol : (⟨2, ![64, 1]⟩ : Shape).Idx → EReal)
    (hbk : ∀ h : Fin 64, bkCol (ix2 h (0 : Fin 1)) = bk (ix1 h)) (h : Fin 64) (j : Fin 8192) :
    keyTable wk emb bkCol (ix2 h j) = key emb wk bk j h := by
  show (∑ d : Fin 128, wk (ix2 h d) * emb (ix2 j d)) + bkCol (ix2 h (0 : Fin 1))
      = (∑ d : Fin 128, emb (ix2 j d) * wk (ix2 h d)) + bk (ix1 h)
  rw [hbk h]
  exact congrArg (· + bk (ix1 h)) (Finset.sum_congr rfl fun d _ => mul_comm _ _)

/-- The logit of a block's `r`-th state against state `j` is the whole table's logit at state `512 t + r`, when
    the block's embedding rows are the table's rows `512 t + r`, the bias row and column hold the two biases, and the
    transposed table holds the keys. -/
private theorem blockLogit_eq (t : Fin 16) (e : (⟨2, ![512, 128]⟩ : Shape).Idx → EReal)
    (he : ∀ (r : Fin 512) (d : Fin 128), e (ix2 r d) = emb (ix2 (blockState t r) d))
    (bqRow : (⟨2, ![1, 64]⟩ : Shape).Idx → EReal) (hbq : ∀ h : Fin 64, bqRow (ix2 (0 : Fin 1) h) = bq (ix1 h))
    (bkCol : (⟨2, ![64, 1]⟩ : Shape).Idx → EReal) (hbk : ∀ h : Fin 64, bkCol (ix2 h (0 : Fin 1)) = bk (ix1 h))
    (r : Fin 512) (j : Fin 8192) :
    blockLogit e wq bqRow (keyTable wk emb bkCol) r j = logit emb wk bk wq bq (blockState t r) j := by
  unfold blockLogit logit query
  refine Finset.sum_congr rfl fun h _ => ?_
  rw [keyTable_apply emb wk bk bkCol hbk h j, hbq h]
  simp only [he]

/-- So is the block's transition weight: the exponential of the same logit over the sum of the exponentials of the
    same row of logits. -/
theorem blockWeight_eq (t : Fin 16) (e : (⟨2, ![512, 128]⟩ : Shape).Idx → EReal)
    (he : ∀ (r : Fin 512) (d : Fin 128), e (ix2 r d) = emb (ix2 (blockState t r) d))
    (bqRow : (⟨2, ![1, 64]⟩ : Shape).Idx → EReal) (hbq : ∀ h : Fin 64, bqRow (ix2 (0 : Fin 1) h) = bq (ix1 h))
    (bkCol : (⟨2, ![64, 1]⟩ : Shape).Idx → EReal) (hbk : ∀ h : Fin 64, bkCol (ix2 h (0 : Fin 1)) = bk (ix1 h))
    (r : Fin 512) (j : Fin 8192) :
    blockWeight e wq bqRow (keyTable wk emb bkCol) r j = weight emb wk bk wq bq (blockState t r) j := by
  unfold blockWeight weight
  simp only [blockLogit_eq emb wk bk wq bq t e he bqRow hbq bkCol hbk r]

/-- The prior at (b, j), a sum over the 8192 states, is the sum over the 16 blocks of the sums over each block's
    512 states. -/
theorem prior_eq_blocks (b : Fin 16) (j : Fin 8192) :
    prior belief emb wk bk wq bq (ix2 b j)
      = ∑ t : Fin 16, ∑ r : Fin 512, belief (ix2 b (blockState t r)) * weight emb wk bk wq bq (blockState t r) j :=
  sum_blocks fun i => belief (ix2 b i) * weight emb wk bk wq bq i j

/-- The blocks up to position `n`. -/
def upTo (n : ℕ) : Finset (Fin 16) := Finset.univ.filter fun t => t.val ≤ n

/-- Up to position 0 there is the one block 0. -/
theorem upTo_zero : upTo 0 = {(0 : Fin 16)} := by
  ext t
  simp only [upTo, Finset.mem_filter, Finset.mem_univ, true_and, Finset.mem_singleton, Fin.ext_iff, Fin.val_zero]
  omega

/-- One position further there is one block more. -/
theorem upTo_succ (n : ℕ) (h : n + 1 < 16) : upTo (n + 1) = insert (⟨n + 1, h⟩ : Fin 16) (upTo n) := by
  ext t
  simp only [upTo, Finset.mem_filter, Finset.mem_univ, true_and, Finset.mem_insert, Fin.ext_iff]
  omega

/-- And that block is a new one. -/
theorem not_mem_upTo (n : ℕ) (h : n + 1 < 16) : (⟨n + 1, h⟩ : Fin 16) ∉ upTo n := by
  simp only [upTo, Finset.mem_filter, Finset.mem_univ, true_and]
  omega

/-- Up to the last position, 15, there are all 16 blocks. -/
theorem upTo_last : upTo 15 = Finset.univ := by
  ext t
  simp only [upTo, Finset.mem_filter, Finset.mem_univ, true_and, iff_true]
  omega

end Cert.Transition

end
-- ==== Proof.KernelAccum.lean ====
/-
  The running sum over the grid, read at the ideal instance.

  One point's update adds to every entry (b, j) of the output block the contribution of the point's block of 512
  states: the sum over the block's states i of belief (b, i) times the transition weight from i to j, the weight
  normalised within its own row by the body. By induction on the position, after point n the scratch still holds
  the key table of the first point and the output block holds the contributions of blocks 0 to n, added in order
  from zero.
-/
import proofs.«139755_g5935644803188_cont_9to1c4b_610_5_alg».proof.Proof.KernelSteps
import proofs.«139755_g5935644803188_cont_9to1c4b_610_5_alg».proof.Proof.KernelPayload
import proofs.«139755_g5935644803188_cont_9to1c4b_610_5_alg».proof.Proof.Bridge

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Blocks Cert.KernelIdeal.Steps Cert.Transition

variable (m : (ℓ : Loc nD τ sig) → Buf (Elt Ideal) ℓ)

/-- A grid position as a block number. -/
def blockOf (n : ℕ) (h : n < cfg0.N) : Fin 16 := ⟨n, lt_of_lt_of_eq h N_0⟩

/-- Block `t`'s contribution to entry (b, j) of the prior: its 512 states' beliefs times their transition weights to `j`. -/
def contrib (c : Dev nD) (t : Fin 16) (b : Fin 16) (j : Fin 8192) : EReal :=
  ∑ r : Fin 512, beliefArr m c (ix2 b (blockState t r))
    * weight (embArr m c) (keyW m c) (keyB m c) (queryW m c) (queryB m c) (blockState t r) j

/-- ONE POINT: over the first point's key table, the update adds the point's block's contribution. -/
theorem step_apply (c : Dev nD) (t : Fin cfg0.N) (acc : Vec Ideal S16x8192 .f32) (b : Fin 16) (j : Fin 8192) :
    step m c t (keyTab m c) acc (ix2 b j) = acc (ix2 b j) + contrib m c (blockOf t.val t.isLt) b j := by
  show k0_pay3 (F := Ideal) _ _ _ _ _ _ (ix2 b j) = _
  rw [pay3_apply]
  refine congrArg (acc (ix2 b j) + ·) (Finset.sum_congr rfl fun r _ => ?_)
  have hr : 512 * t.val + r.val < 8192 := by
    have h1 := lt_of_lt_of_eq t.isLt N_0
    have h2 := r.isLt
    omega
  rw [beliefCols_apply t (beliefArr m c) b r hr, show keyTab m c = keyTable (keyW m c) (embArr m c) (keyBCol m c) from pay1_eq _ _ _,
    blockWeight_eq (embArr m c) (keyW m c) (keyB m c) (queryW m c) (queryB m c) (blockOf t.val t.isLt)
      (embRows (grid0.coords t) (embArr m c))
      (fun r' d => embRows_apply t (embArr m c) r' d (by have h1 := lt_of_lt_of_eq t.isLt N_0; have h2 := r'.isLt; omega))
      (queryBRow m c) (fun h => shapeCast_a_1a_apply (queryB m c) shapeCasts_S64_S1x64 0 h)
      (keyBCol m c) (fun h => shapeCast_a_a1_apply (keyB m c) shapeCasts_S64_S64x1 h 0) r j]
  rfl

/-- THE INVARIANT. After point `n` the scratch holds the key table and the output block, at (b, j), the contributions of
    the blocks up to `n`. -/
theorem outsAt_eq (c : Dev nD) : ∀ (n : ℕ) (h : n < cfg0.N),
    (outsAt0 m c n h).2 = keyTab m c
      ∧ ∀ (b : Fin 16) (j : Fin 8192), (outsAt0 m c n h).1 (ix2 b j) = ∑ t ∈ upTo n, contrib m c t b j
  | 0, h => by
    rw [show outsAt0 m c 0 h = (step m c ⟨0, h⟩ (keyTab m c) (k0_pay2 (F := Ideal)), keyTab m c) from outsAt_first m c ⟨0, h⟩ rfl]
    refine ⟨rfl, fun b j => ?_⟩
    show step m c ⟨0, h⟩ (keyTab m c) (k0_pay2 (F := Ideal)) (ix2 b j) = _
    rw [step_apply, pay2_apply, zero_add, upTo_zero, Finset.sum_singleton]
    rfl
  | n + 1, h => by
    have hN : n + 1 < 16 := lt_of_lt_of_eq h N_0
    obtain ⟨ih2, ih1⟩ := outsAt_eq c n (Nat.lt_of_succ_lt h)
    have hB : ¬(⟨n + 1, h⟩ : Fin cfg0.N).val % 16 = 0 := by dsimp only; omega
    rw [show outsAt0 m c (n + 1) h
        = (step m c ⟨n + 1, h⟩ (outsAt0 m c n (Nat.lt_of_succ_lt h)).2 (outsAt0 m c n (Nat.lt_of_succ_lt h)).1,
            (outsAt0 m c n (Nat.lt_of_succ_lt h)).2) from outsAt_later m c ⟨n + 1, h⟩ hB]
    refine ⟨ih2, fun b j => ?_⟩
    show step m c ⟨n + 1, h⟩ (outsAt0 m c n (Nat.lt_of_succ_lt h)).2 (outsAt0 m c n (Nat.lt_of_succ_lt h)).1 (ix2 b j) = _
    rw [ih2, step_apply, ih1, upTo_succ n hN, Finset.sum_insert (not_mem_upTo n hN), add_comm]
    rfl

end Cert.KernelIdeal.Accum

end
-- ==== Proof.KernelFinal.lean ====
/-
  The kernel's result array.

  The output window's block is the whole array at every grid point and is written back once, after the last point.
  What the last point leaves in the block is the sum of all 16 blocks' contributions, which is the prior: the sum over
  all 8192 states. So the program's run ends with the result array holding the prior of its arguments.
-/
import proofs.«139755_g5935644803188_cont_9to1c4b_610_5_alg».proof.Proof.KernelAccum
import proofs.«139755_g5935644803188_cont_9to1c4b_610_5_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Steps Cert.KernelIdeal.Accum Cert.Transition

variable (m : (ℓ : Loc nD τ sig) → Buf (Elt Ideal) ℓ) (ρ : Dev nD → PrngReg)

/-- The prior of core `c`'s arguments, as contents of the result array. -/
abbrev result (c : Dev nD) : Buf (Elt Ideal) ((c : Thread nD τ).loc main_v2) :=
  prior (beliefArr m c) (embArr m c) (keyW m c) (keyB m c) (queryW m c) (queryB m c)

/-- After the last point the output block holds the prior: all 16 blocks' contributions. -/
theorem last_eq (c : Dev nD) (h : 15 < cfg0.N) : (outsAt0 m c 15 h).1 = result m c := by
  funext y
  obtain ⟨b, j, rfl⟩ : ∃ (b : Fin 16) (j : Fin 8192), y = ix2 b j := ⟨y 0, y 1, eq_ix2 y⟩
  rw [(outsAt_eq m c 15 h).2 b j, upTo_last]
  exact (prior_eq_blocks (beliefArr m c) (embArr m c) (keyW m c) (keyB m c) (queryW m c) (queryB m c) b j).symm

/-- The one write-back, after point 15, writes the prior: the block at index (0, 0), of the array's own extents, read
    through zero offsets is the array. -/
theorem flushed_eq (c : Dev nD) (t : Fin cfg0.N) (hf : (cfg0.win 6).flush t = true) :
    (dats m 0 c).flushed 6 t = ((cfg0.win 6).blk t).view.read (Elt Ideal) (result m c) := by
  have hN : cfg0.N = 16 := N_0
  have h15 : t.val = 15 := by have := (flush0_6 t).mp hf; have := t.isLt; omega
  obtain rfl : t = t0_15 := Fin.ext h15
  rw [Cert.KernelIdeal.Value.flushed6]
  rw [show (outsAt0 m c (t0_15 : Fin cfg0.N).val (t0_15 : Fin cfg0.N).isLt).1 = result m c from last_eq m c _]
  have hz' : (fun a => win0_6.index t0_15 a * main_v2.ty.shape.size a) = fun _ => 0 := funext fun a => by fin_cases a <;> decide
  exact (Memref.read_access_unit_zero (Elt Ideal) main_v2 hz' (fun a => by rw [congrFun hz' a]; simp) (result m c)).symm

/-- The output window's block at the last point is the whole array: its index is (0, 0) and its extents are the
    array's, so every index of the array lies in it. -/
theorem mem_last_block (i : S16x8192.Idx) : i ∈ ((cfg0.win 6).blk t0_15).view.set := by
  show i ∈ ((View.whole main_v2).slice (win0_6.rect t0_15)).set
  rw [View.set_slice_whole, Rect.mem_set_unit]
  intro a
  have hlt : (i a : Nat) < S16x8192.size a := (i a).isLt
  have hoff : win0_6.index t0_15 a * win0_6.size a = 0 := by fin_cases a <;> decide +kernel
  have hext : win0_6.xsize (grid0.coords t0_15) a = S16x8192.size a := by fin_cases a <;> decide +kernel
  show win0_6.index t0_15 a * win0_6.size a ≤ (i a : Nat)
    ∧ (i a : Nat) < win0_6.index t0_15 a * win0_6.size a + win0_6.xsize (grid0.coords t0_15) a
  rw [hoff, hext]
  omega

/-- So the result array ends holding the prior: the one block written back covers the array. -/
theorem final (c : Dev nD) : (dats m 0 c).arrAt 6 cfg0.N = result m c :=
  (dats m 0 c).arrAt_eq_of_cover 6 (result m c) (flushed_eq m c) fun i =>
    ⟨t0_15, (flush0_6 t0_15).mpr rfl, mem_last_block i⟩

/-- The run, read: the result array at the prior of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Final

end
-- ==== Proof.RefValue.lean ====
/-
  The reference program's result, read index by index, is the prior belief of the specification.

  The reference forms the query table Q = emb · Wqᵀ + bq and the key table K = emb · Wkᵀ + bk, the logits Q · Kᵀ, and
  a softmax over each row of logits with the row's maximum subtracted first: with m the maximum of the row (taken
  from -∞, and once more against -∞), the weight is exp(l - m) / (0 + Σ exp(l - m)). The batch of beliefs is then
  multiplied into the weights.

  Every logit is a real number, because every entry of the embedding, of the two weight matrices and of the two
  biases is one and sums and products of real numbers are real. So the maximum of a row is a real number, and a
  softmax does not change when a real constant is subtracted from every logit of its row: the shifted quotient is the
  unshifted exponential times the reciprocal of the unshifted sum, which is the specification's weight.
-/
import proofs.«139755_g5935644803188_cont_9to1c4b_610_5_alg».proof.Proof.Gen.ReferenceIdeal.Read
import proofs.«139755_g5935644803188_cont_9to1c4b_610_5_alg».proof.Proof.Spec
import proofs.«139755_g5935644803188_cont_9to1c4b_610_5_alg».proof.Proof.RealLaws
import Idealize.ShloMosaic.Lib.ValueIdx
import Idealize.ShloMosaic.PureOps.Ideal.Laws
import Idealize.ShloMosaic.Lib.Pipeline.Value

noncomputable section

open scoped BigOperators

namespace Cert.Transition

open Idealize.ShloMosaic Idealize.ShloMosaic.ValueIdx Cert.ReferenceIdeal Cert.ReferenceIdeal.Read

section Stages

variable (x1 : (⟨S8192x128, .f32⟩ : BufTy).Contents (Elt Ideal))
  (x2 : (⟨S64x128, .f32⟩ : BufTy).Contents (Elt Ideal)) (x3 : (⟨S64, .f32⟩ : BufTy).Contents (Elt Ideal))
  (x4 : (⟨S64x128, .f32⟩ : BufTy).Contents (Elt Ideal)) (x5 : (⟨S64, .f32⟩ : BufTy).Contents (Elt Ideal))

/-! ## The linear stages: queries, keys, logits -/

/-- Entry (i, h) of emb · Wqᵀ + bq is entry `h` of state `i`'s query vector. -/
theorem v4_eq (i : Fin 8192) (h : Fin 64) :
    val_main_v4 (F := Ideal) x1 x4 x5 (ix2 i h) = query x1 x4 x5 i h := by
  rw [val_main_v4_apply, val_main_v1_apply, val_main_v3_apply, val_main_v2_apply]
  unfold query
  rw [Ideal.addf_def]
  congr 1
  · refine Finset.sum_congr rfl fun d _ => ?_
    rw [val_main_v0_apply]
    congr 1
    · exact congrArg x1 (funext fun a => match a with | ⟨0, _⟩ => rfl | ⟨1, _⟩ => rfl)
    · exact congrArg x4 (funext fun a => match a with | ⟨0, _⟩ => rfl | ⟨1, _⟩ => rfl)
  · exact congrArg x5 (funext fun a => match a with | ⟨0, _⟩ => rfl)

/-- Entry (j, h) of emb · Wkᵀ + bk is entry `h` of state `j`'s key vector. -/
theorem v9_eq (j : Fin 8192) (h : Fin 64) :
    val_main_v9 (F := Ideal) x1 x2 x3 (ix2 j h) = key x1 x2 x3 j h := by
  rw [val_main_v9_apply, val_main_v6_apply, val_main_v8_apply, val_main_v7_apply]
  unfold key
  rw [Ideal.addf_def]
  congr 1
  · refine Finset.sum_congr rfl fun d _ => ?_
    rw [val_main_v5_apply]
    congr 1
    · exact congrArg x1 (funext fun a => match a with | ⟨0, _⟩ => rfl | ⟨1, _⟩ => rfl)
    · exact congrArg x2 (funext fun a => match a with | ⟨0, _⟩ => rfl | ⟨1, _⟩ => rfl)
  · exact congrArg x3 (funext fun a => match a with | ⟨0, _⟩ => rfl)

/-- Entry (i, j) of Q · Kᵀ is the logit of the pair (i, j): the key table is read transposed, so the contraction
    runs over the 64 entries of state `i`'s query against the 64 entries of state `j`'s key. -/
theorem v11_eq (i j : Fin 8192) :
    val_main_v11 (F := Ideal) x1 x2 x3 x4 x5 (ix2 i j) = logit x1 x2 x3 x4 x5 i j := by
  rw [val_main_v11_apply]
  unfold logit
  refine Finset.sum_congr rfl fun h _ => ?_
  rw [val_main_v10_apply, ← v4_eq, ← v9_eq]
  congr 1
  · exact congrArg (val_main_v4 (F := Ideal) x1 x4 x5) (funext fun a => match a with | ⟨0, _⟩ => rfl | ⟨1, _⟩ => rfl)
  · exact congrArg (val_main_v9 (F := Ideal) x1 x2 x3) (funext fun a => match a with | ⟨0, _⟩ => rfl | ⟨1, _⟩ => rfl)

/-! ## Every logit, and every row's maximum, is a real number -/

section Real

variable (h1 : ∀ i, IsReal (x1 i)) (h2 : ∀ i, IsReal (x2 i)) (h3 : ∀ i, IsReal (x3 i))
  (h4 : ∀ i, IsReal (x4 i)) (h5 : ∀ i, IsReal (x5 i))

include h1 h4 h5 in
/-- A query entry is a finite sum of products of real numbers plus a real number. -/
theorem isReal_query (i : Fin 8192) (h : Fin 64) : IsReal (query x1 x4 x5 i h) :=
  (IsReal.sum _ _ fun _ _ => (h1 _).mul (h4 _)).add (h5 _)

include h1 h2 h3 in
/-- So is a key entry. -/
theorem isReal_key (j : Fin 8192) (h : Fin 64) : IsReal (key x1 x2 x3 j h) :=
  (IsReal.sum _ _ fun _ _ => (h1 _).mul (h2 _)).add (h3 _)

include h1 h2 h3 h4 h5 in
/-- A logit is a finite sum of products of a query entry and a key entry. -/
theorem isReal_logit (i j : Fin 8192) : IsReal (logit x1 x2 x3 x4 x5 i j) :=
  IsReal.sum _ _ fun _ _ => (isReal_query x1 x4 x5 h1 h4 h5 _ _).mul (isReal_key x1 x2 x3 h1 h2 h3 _ _)

include h1 h2 h3 h4 h5 in
/-- Every entry of the logit table is a real number, wherever it is read. -/
theorem isReal_v11 (y : S8192x8192.Idx) : IsReal (val_main_v11 (F := Ideal) x1 x2 x3 x4 x5 y) := by
  obtain ⟨a, b, rfl⟩ : ∃ a b : Fin 8192, y = ix2 a b := ⟨y 0, y 1, eq_ix2 (n0 := 8192) (n1 := 8192) y⟩
  rw [v11_eq]
  exact isReal_logit x1 x2 x3 x4 x5 h1 h2 h3 h4 h5 _ _

/-- The word `0xFF800000` encodes -∞, the bottom of the extended reals. -/
theorem ofBits_neg_inf : Ideal.ofBits .f32 0xFF800000#32 = (⊥ : EReal) := by simp [Ideal.ofBits, Ideal.ieee]

include h1 h2 h3 h4 h5 in
/-- A row's maximum, folded from -∞ over the row's 8192 real logits, is a real number. -/
theorem isReal_v12 (i : Fin 8192) : IsReal (val_main_v12 (F := Ideal) x1 x2 x3 x4 x5 (ix1 i)) := by
  unfold val_main_v12
  rw [Host.reduce_eq_fold_single (FloatOps.maximumf (F := Ideal) (φ := .f32)) _ _ _
    (by decide : S8192x8192.Reduces [1] S8192), val_main_cst_apply]
  show IsReal (Finset.fold max (Ideal.ofBits .f32 0xFF800000#32) _ (Finset.univ : Finset (Fin 8192)))
  rw [ofBits_neg_inf]
  exact isReal_fold_max (ι := Fin 8192) _ fun k => isReal_v11 x1 x2 x3 x4 x5 h1 h2 h3 h4 h5 _

include h1 h2 h3 h4 h5 in
/-- Taking the maximum with -∞ once more changes nothing: the shift `m` of row `i` is a real number. -/
theorem isReal_v14 (i : Fin 8192) : IsReal (val_main_v14 (F := Ideal) x1 x2 x3 x4 x5 (ix1 i)) := by
  rw [val_main_v14_apply, val_main_v13_apply, val_main_cst_0_apply, Ideal.maximumf_def]
  show IsReal (max (Ideal.ofBits .f32 0xFF800000#32) _)
  rw [ofBits_neg_inf, max_eq_right bot_le]
  exact isReal_v12 x1 x2 x3 x4 x5 h1 h2 h3 h4 h5 i

end Real

/-! ## The shifted softmax is the specification's weight -/

/-- The numerator at (i, j): the exponential of the logit less the row's shift. -/
theorem v18_eq (i j : Fin 8192) :
    val_main_v18 (F := Ideal) x1 x2 x3 x4 x5 (ix2 i j)
      = Ideal.exp (logit x1 x2 x3 x4 x5 i j - val_main_v14 (F := Ideal) x1 x2 x3 x4 x5 (ix1 i)) := by
  rw [val_main_v18_apply, val_main_v17_apply, val_main_v16_apply, val_main_v15_apply, v11_eq,
    Ideal.hostUnary_exp_def, Ideal.subf_def]
  exact congrArg (fun z => Ideal.exp (logit x1 x2 x3 x4 x5 i j - val_main_v14 (F := Ideal) x1 x2 x3 x4 x5 z))
    (funext fun a => match a with | ⟨0, _⟩ => rfl)

/-- The denominator at (i, j): zero plus the sum over the row of the shifted exponentials. -/
theorem v21_eq (i j : Fin 8192) :
    val_main_v21 (F := Ideal) x1 x2 x3 x4 x5 (ix2 i j)
      = 0 + ∑ k : Fin 8192, Ideal.exp (logit x1 x2 x3 x4 x5 i k - val_main_v14 (F := Ideal) x1 x2 x3 x4 x5 (ix1 i)) := by
  rw [val_main_v21_apply, val_main_v20_apply, val_main_v19_apply, val_main_cst_1_apply]
  show Ideal.ofBits .f32 0x00000000#32 + _ = _
  rw [Ideal.ofBits_zero_f32]
  refine congrArg (0 + ·) (Finset.sum_congr rfl fun k _ => ?_)
  rw [← v18_eq]
  exact congrArg (val_main_v18 (F := Ideal) x1 x2 x3 x4 x5) (funext fun a => match a with | ⟨0, _⟩ => rfl | ⟨1, _⟩ => rfl)

/-- The quotient at (i, j) is the transition weight from `i` to `j`: shift invariance of the softmax on a row of
    real logits, with the real shift `m` of the row. -/
theorem v22_eq (h1 : ∀ i, IsReal (x1 i)) (h2 : ∀ i, IsReal (x2 i)) (h3 : ∀ i, IsReal (x3 i))
    (h4 : ∀ i, IsReal (x4 i)) (h5 : ∀ i, IsReal (x5 i)) (i j : Fin 8192) :
    val_main_v22 (F := Ideal) x1 x2 x3 x4 x5 (ix2 i j) = weight x1 x2 x3 x4 x5 i j := by
  rw [val_main_v22_apply, v18_eq, v21_eq, Ideal.hostDivf_def]
  exact softmax_shift (fun k => logit x1 x2 x3 x4 x5 i k) (fun k => isReal_logit x1 x2 x3 x4 x5 h1 h2 h3 h4 h5 i k) _
    (isReal_v14 x1 x2 x3 x4 x5 h1 h2 h3 h4 h5 i) j

end Stages

/-! ## The result -/

/-- The reference's result is the prior belief: entry (b, j) is the sum over the states `i` of belief (b, i) times the
    transition weight from `i` to `j`. -/
theorem reference_eq_prior [Cert.ReferenceIdeal.Facts]
    (x0 : (⟨Cert.ReferenceIdeal.S16x8192, .f32⟩ : BufTy).Contents (Elt Ideal)) (x1 : (⟨Cert.ReferenceIdeal.S8192x128, .f32⟩ : BufTy).Contents (Elt Ideal))
    (x2 : (⟨Cert.ReferenceIdeal.S64x128, .f32⟩ : BufTy).Contents (Elt Ideal)) (x3 : (⟨Cert.ReferenceIdeal.S64, .f32⟩ : BufTy).Contents (Elt Ideal))
    (x4 : (⟨Cert.ReferenceIdeal.S64x128, .f32⟩ : BufTy).Contents (Elt Ideal)) (x5 : (⟨Cert.ReferenceIdeal.S64, .f32⟩ : BufTy).Contents (Elt Ideal))
    (h1 : ∀ i, IsReal (x1 i)) (h2 : ∀ i, IsReal (x2 i)) (h3 : ∀ i, IsReal (x3 i)) (h4 : ∀ i, IsReal (x4 i)) (h5 : ∀ i, IsReal (x5 i)) :
    Cert.ReferenceIdeal.Read.val_main_v23 (F := Ideal) x0 x1 x2 x3 x4 x5 = prior x0 x1 x2 x3 x4 x5 := by
  funext y
  obtain ⟨b, j, rfl⟩ : ∃ (b : Fin 16) (j : Fin 8192), y = ix2 b j := ⟨y 0, y 1, eq_ix2 (n0 := 16) (n1 := 8192) y⟩
  rw [val_main_v23_apply]
  show _ = ∑ i : Fin 8192, x0 (ix2 b i) * weight x1 x2 x3 x4 x5 i j
  refine Finset.sum_congr rfl fun k _ => ?_
  have e0 : lidx_main_v23 (ix2 b j) k = ix2 b k := funext fun a => match a with | ⟨0, _⟩ => rfl | ⟨1, _⟩ => rfl
  have e1 : ridx_main_v23 (ix2 b j) k = ix2 k j := funext fun a => match a with | ⟨0, _⟩ => rfl | ⟨1, _⟩ => rfl
  rw [e0, e1, v22_eq x1 x2 x3 x4 x5 h1 h2 h3 h4 h5]

end Cert.Transition

end
-- ==== Proof.Finite.lean ====
/-
  From the printed precondition to "every entry is a real number".

  The precondition compares, entry by entry, the absolute value of each of the six input arrays with plus
  infinity, takes the conjunction of the comparisons over all axes of each array, and then the conjunction of
  the six results. If it comes out true, every comparison came out true, and an extended real whose absolute
  value lies strictly below plus infinity is neither infinity: it is a real number.
-/
import proofs.«139755_g5935644803188_cont_9to1c4b_610_5_alg».proof.Pre_finite_inputs
import Idealize.ShloMosaic.Lib.ReduceAll
import Idealize.ShloMosaic.Lib.ValueIdx
import Idealize.ShloMosaic.PureOps.Ideal.Laws
import proofs.«139755_g5935644803188_cont_9to1c4b_610_5_alg».proof.Proof.RealLaws

noncomputable section

namespace Cert.Transition

open Idealize.ShloMosaic

/-- The word `0x7F800000` is plus infinity. -/
private theorem ofBits_inf : Ideal.ofBits .f32 0x7F800000#32 = (⊤ : EReal) := by simp [Ideal.ofBits, Ideal.ieee]

/-- ONE ENTRY. If `max x (-x) < +∞` holds (the comparison gives the bit 1), `x` is a real number: at `x = +∞` the
    maximum is `+∞`, at `x = -∞` it is `-(-∞) = +∞`, and in both cases the strict comparison fails. -/
private theorem isReal_of_abs_lt_inf (x : EReal)
    (h : Ideal.cmp .olt (max x (-x)) (Ideal.ofBits .f32 0x7F800000#32) = 1#1) : IsReal x := by
  rw [ofBits_inf] at h
  unfold Ideal.cmp at h
  induction x using EReal.rec with
  | bot => simp at h
  | coe r => exact ⟨r, rfl⟩
  | top => simp at h

/-- The shape with no axes has one index. -/
private instance subsingleton_scalar_idx : Subsingleton Cert.Pre_finite_inputs.S_.Idx :=
  ⟨fun a b => funext fun d => d.elim0⟩

/-- ONE ARRAY. If the conjunction over all axes of `|x| < +∞` is true, every entry of `x` is a real number: a
    conjunction that is true had only true members, and the member at `i` is the comparison for the entry `x i`
    (the scalar `+∞` broadcast to the array's shape reads `+∞` at every index). -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ValueIdx.ix0 = 1#1)
    (i : s.Idx) : IsReal (x i) :=
  isReal_of_abs_lt_inf (x i) (Host.reduce_andi_all _ init hr hu ValueIdx.ix0 e i)

/-- ALL SIX ARRAYS. The precondition is the conjunction of six array-wide conjunctions; read at its one index and
    found true, it gives each of the six true, and each of those makes every entry of its array a real number. -/
theorem real_of_pre [Cert.Pre_finite_inputs.Facts]
    (x0 : FVec Ideal Cert.Pre_finite_inputs.S16x8192 .f32) (x1 : FVec Ideal Cert.Pre_finite_inputs.S8192x128 .f32)
    (x2 : FVec Ideal Cert.Pre_finite_inputs.S64x128 .f32) (x3 : FVec Ideal Cert.Pre_finite_inputs.S64 .f32)
    (x4 : FVec Ideal Cert.Pre_finite_inputs.S64x128 .f32) (x5 : FVec Ideal Cert.Pre_finite_inputs.S64 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ _ e0, all_real x1 _ _ _ _ e1, all_real x2 _ _ _ _ e2, all_real x3 _ _ _ _ e3,
    all_real x4 _ _ _ _ e4, all_real x5 _ _ _ _ e5⟩

end Cert.Transition

end
-- ==== Proof.lean ====
/-
  The certificate of the fused factorized-transition kernel against its jnp reference, over the extended reals.

  Both programs compute, from a belief batch, a state embedding table and two linear maps (keys and queries),
  the prior belief `prior b j = ∑ i, belief b i · weight i j`, where `weight i ·` is the softmax of the row of
  logits `⟨query i, key ·⟩`. The reference forms the 8192 × 8192 table of weights at once, subtracting each row's
  maximum before the exponential; the kernel walks over 16 blocks of 512 states, keeps the transposed key table in
  a scratch buffer from the first grid point on, normalises each row by the reciprocal of its own sum of exponentials
  without the shift, and accumulates the blocks' contributions in its output block, written back once at the end.

  The two agree because (a) sums and products of extended reals commute and associate, so neither the order of
  the blocks nor the order of two factors matters, and (b) every logit is a real number when every input entry is
  (the precondition), so the row maximum is a real number too, and subtracting a real number from a whole row of
  real logits multiplies the exponential and the row's sum of exponentials by the same positive factor.
  A change of float format is the identity at this instance.

  The kernel's frame (termination, no fault, arguments unchanged) is the generated one at both instances; the
  reference's is its generated run; nothing was rewritten between the kernel and its idealization.
-/
import proofs.«139755_g5935644803188_cont_9to1c4b_610_5_alg».proof.Defs
import proofs.«139755_g5935644803188_cont_9to1c4b_610_5_alg».proof.Proof.Gen.Kernel
import proofs.«139755_g5935644803188_cont_9to1c4b_610_5_alg».proof.Proof.Gen.Kernel.Skeleton
import proofs.«139755_g5935644803188_cont_9to1c4b_610_5_alg».proof.Proof.Gen.Kernel.Launch
import proofs.«139755_g5935644803188_cont_9to1c4b_610_5_alg».proof.Proof.Gen.Kernel.Points
import proofs.«139755_g5935644803188_cont_9to1c4b_610_5_alg».proof.Proof.Gen.Kernel.Frame
import proofs.«139755_g5935644803188_cont_9to1c4b_610_5_alg».proof.Proof.Gen.KernelIdeal
import proofs.«139755_g5935644803188_cont_9to1c4b_610_5_alg».proof.Proof.Gen.KernelIdeal.Skeleton
import proofs.«139755_g5935644803188_cont_9to1c4b_610_5_alg».proof.Proof.Gen.KernelIdeal.Launch
import proofs.«139755_g5935644803188_cont_9to1c4b_610_5_alg».proof.Proof.Gen.KernelIdeal.Points
import proofs.«139755_g5935644803188_cont_9to1c4b_610_5_alg».proof.Proof.Gen.KernelIdeal.Frame
import proofs.«139755_g5935644803188_cont_9to1c4b_610_5_alg».proof.Proof.Gen.ReferenceIdeal
import proofs.«139755_g5935644803188_cont_9to1c4b_610_5_alg».proof.Proof.Gen.Pre_finite_inputs
import proofs.«139755_g5935644803188_cont_9to1c4b_610_5_alg».proof.Proof.Gen.KernelIdeal.Value
import proofs.«139755_g5935644803188_cont_9to1c4b_610_5_alg».proof.Proof.Gen.ReferenceIdeal.Run
import proofs.«139755_g5935644803188_cont_9to1c4b_610_5_alg».proof.Proof.Gen.ReferenceIdeal.Read
import proofs.«139755_g5935644803188_cont_9to1c4b_610_5_alg».proof.Proof.KernelFinal
import proofs.«139755_g5935644803188_cont_9to1c4b_610_5_alg».proof.Proof.RefValue
import proofs.«139755_g5935644803188_cont_9to1c4b_610_5_alg».proof.Proof.Finite
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, all real numbers by the precondition, the kernel's result array
    ends at the prior of its arguments, and the reference's at its softmax-with-shift form of the same arguments,
    which is the prior. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨ha0, ha1, ha2, ha3, ha4, ha5⟩ := hagree c
  obtain ⟨-, r1, r2, r3, r4, r5⟩ := Cert.Transition.real_of_pre _ _ _ _ _ _ (hpre c)
  rw [Cert.ReferenceIdeal.Read.val_main_v23_eq, ha0, ha1, ha2, ha3, ha4, ha5]
  exact Cert.Transition.reference_eq_prior _ _ _ _ _ _ r1 r2 r3 r4 r5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
